-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024 : Shape := ⟨1, ![1024]⟩
abbrev S1024x256 : Shape := ⟨2, ![1024, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S4096x1024 .f32) (main_arg1 : IVec S1024 1) (main_arg2 : FVec F S1024x256 .f32) (main_arg3 : FVec F S256x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x256 .f32 := Host.absf main_arg2
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S4096x1024 : Shape := ⟨2, ![4096, 1024]⟩
abbrev S1024 : Shape := ⟨1, ![1024]⟩
abbrev S1024x256 : Shape := ⟨2, ![1024, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S4096x128 : Shape := ⟨2, ![4096, 128]⟩
abbrev S1024x1024 : Shape := ⟨2, ![1024, 1024]⟩
abbrev S1024x128 : Shape := ⟨2, ![1024, 128]⟩
abbrev S1024x1 : Shape := ⟨2, ![1024, 1]⟩
abbrev S1x256 : Shape := ⟨2, ![1, 256]⟩
abbrev S1x128 : Shape := ⟨2, ![1, 128]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .i1⟩
  | .hbm, ⟨2, _⟩ => ⟨S1024x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1024, .i32⟩
  | .hbm, ⟨10, _⟩ => ⟨S4096x128, .f32⟩
  | .local _ .vmem, ⟨0, _⟩ => ⟨S1024x1024, .f32⟩
  | .local _ .vmem, ⟨1, _⟩ => ⟨S1024x1024, .f32⟩
  | .local _ .vmem, ⟨2, _⟩ => ⟨S1024, .i32⟩
  | .local _ .vmem, ⟨3, _⟩ => ⟨S1024x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S1024x128, .f32⟩
  | .local _ .vmem, ⟨11, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  natLt_1_32 : 1 < 32
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x256 : S1024x1.Broadcasts S1024x256
  inb_S1024x1024_S1024x1024_0_0 : ∀ a, (![0, 0] : Fin 2 → Nat) a + S1024x1024.size a ≤ S1024x1024.size a
  h_S1024x1024 : 0 < S1024x1024.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .i32 = 32 ∨ (Rect.block (s := S1024) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S4096x128.size a
  hwx0_9 : ∀ i : grid0.Coords, EltTy.bits .f32 = 32 ∨ (Rect.block (s := S4096x128) S1024x128.size (cc0_transform_9 i) (hinb0_9 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024 : Shape := ⟨1, ![1024]⟩
abbrev S1024x256 : Shape := ⟨2, ![1024, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1024x1 : Shape := ⟨2, ![1024, 1]⟩
abbrev S4096x256 : Shape := ⟨2, ![4096, 256]⟩
abbrev S1x256 : Shape := ⟨2, ![1, 256]⟩
abbrev S_ : Shape := ⟨0, ![]⟩
abbrev S4096x128 : Shape := ⟨2, ![4096, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .i1⟩
  | .hbm, ⟨2, _⟩ => ⟨S1024x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1024, .f32⟩
  | .hbm, ⟨10, _⟩ => ⟨S1024x1, .f32⟩
  | .hbm, ⟨11, _⟩ => ⟨S1024x256, .f32⟩
  | .hbm, ⟨12, _⟩ => ⟨S1024x256, .f32⟩
  | .hbm, ⟨13, _⟩ => ⟨S4096x256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x1024_S1024x256_S4096x256_1_0_0_1_n_n_wf : DotDims.WF S4096x1024 S1024x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.MlpSpec.lean ====
/-
  The function both programs compute, stated once and without any program: a feature-masked projection followed by
  a three-layer perceptron, acting on a batch ONE ROW AT A TIME.

  For a feature row `x` (1024 entries), mask values `μ` (one per feature), and weights `W, W1, b1, W2, b2, W3, b3`:
    h⁰_j = Σ_k x_k · (W_kj · μ_k)                       (masked projection, 1024 → 256)
    h¹_j = max (Σ_k h⁰_k · W1_kj + b1_j) 0              (dense + relu, 256 → 256)
    h²_j = max (Σ_k h¹_k · W2_kj + b2_j) 0              (dense + relu, 256 → 256)
    out_j = Σ_k h²_k · W3_kj + b3_j                     (dense, 256 → 128)
  over the extended reals, every sum a plain finite sum in the order of its index. No row of the batch enters another
  row's value; that is all a row-blocked evaluation needs. Nothing here rearranges a sum or distributes a product, so
  no entry needs to be finite.

  The mask arrives as bits. A bit `b` counts as the real number `b` (`maskVal`). A program that first widens the bit to
  a 32-bit word, tests the word against zero, widens the test's bit again and reads THAT word as a signed integer gets
  the same number (`maskWord_widened`): the widened word of a bit is 0 or 1, never negative.
-/
import Idealize.ShloMosaic.PureOps.Ideal
import Idealize.ShloMosaic.Lib.ValueIdx

noncomputable section

namespace Cert.MaskedMlp

open Idealize.ShloMosaic Idealize.ShloMosaic.ValueIdx

/-- A matrix of extended reals with `a` rows and `b` columns. -/
abbrev Mat (a b : ℕ) : Type := (⟨2, ![a, b]⟩ : Shape).Idx → EReal
/-- A vector of `a` extended reals. -/
abbrev Vec1 (a : ℕ) : Type := (⟨1, ![a]⟩ : Shape).Idx → EReal

/-! ## The layers, on one row -/

/-- A dense layer on a row `h`: entry `j` is `Σ_k h_k · M_kj + b_j`. -/
def dense {K N : ℕ} (h : Fin K → EReal) (M : Mat K N) (b : Vec1 N) (j : Fin N) : EReal :=
  (∑ k : Fin K, h k * M (ix2 k j)) + b (ix1 j)

/-- The masked projection of a feature row: entry `j` is `Σ_k x_k · (W_kj · μ_k)`. -/
def project {K N : ℕ} (x μ : Fin K → EReal) (W : Mat K N) (j : Fin N) : EReal :=
  ∑ k : Fin K, x k * (W (ix2 k j) * μ k)

/-- The first hidden row: dense layer on the projection, then relu. -/
def hidden1 (x μ : Fin 1024 → EReal) (W : Mat 1024 256) (W1 : Mat 256 256) (b1 : Vec1 256) (j : Fin 256) : EReal :=
  max (dense (project x μ W) W1 b1 j) 0

/-- The second hidden row: dense layer on the first, then relu. -/
def hidden2 (x μ : Fin 1024 → EReal) (W : Mat 1024 256) (W1 : Mat 256 256) (b1 : Vec1 256) (W2 : Mat 256 256) (b2 : Vec1 256)
    (j : Fin 256) : EReal :=
  max (dense (hidden1 x μ W W1 b1) W2 b2 j) 0

/-- The output row of the network for the feature row `x`. -/
def mlpRow (x μ : Fin 1024 → EReal) (W : Mat 1024 256) (W1 : Mat 256 256) (b1 : Vec1 256) (W2 : Mat 256 256) (b2 : Vec1 256)
    (W3 : Mat 256 128) (b3 : Vec1 128) (j : Fin 128) : EReal :=
  dense (hidden2 x μ W W1 b1 W2 b2) W3 b3 j

/-- Two rows that agree entry by entry, and two masks that do, give the same output row. -/
theorem mlpRow_congr {x x' μ μ' : Fin 1024 → EReal} (hx : ∀ k, x k = x' k) (hμ : ∀ k, μ k = μ' k)
    (W : Mat 1024 256) (W1 : Mat 256 256) (b1 : Vec1 256) (W2 : Mat 256 256) (b2 : Vec1 256) (W3 : Mat 256 128) (b3 : Vec1 128) :
    mlpRow x μ W W1 b1 W2 b2 W3 b3 = mlpRow x' μ' W W1 b1 W2 b2 W3 b3 := by
  rw [funext hx, funext hμ]

/-! ## The mask -/

/-- A mask bit as a number: `0` or `1`. -/
def maskVal (b : BitVec 1) : EReal := ((b.toNat : ℝ) : EReal)

/-- A 32-bit mask word as a number, the way a vector unit reads it: test the word against zero, widen the test's bit
    to a word, read that word as a signed integer. -/
def maskWordVal (w : BitVec 32) : EReal := (((((IntOp.cmpi .ne w 0#32).setWidth 32).toInt : ℤ) : ℝ) : EReal)

/-- The widened word of a bit reads back as the bit: both are `0` for a clear bit and `1` for a set one. -/
theorem maskWord_widened (b : BitVec 1) : maskWordVal (b.setWidth 32) = maskVal b := by
  have hint : ((IntOp.cmpi .ne (b.setWidth 32) 0#32).setWidth 32).toInt = (b.toNat : ℤ) := by
    by_cases h : b = 1#1
    · subst h; decide
    · have h0 := eq_zero_of_ne_one h; subst h0; decide
  unfold maskWordVal maskVal
  rw [hint, Int.cast_natCast]

/-! ## The whole batch -/

/-- The network on a batch of `n` rows: entry `(i, j)` is entry `j` of the output row of feature row `i`. -/
def mlp {n : ℕ} (X : Mat n 1024) (mask : (⟨1, ![1024]⟩ : Shape).Idx → BitVec 1) (W : Mat 1024 256) (W1 : Mat 256 256) (b1 : Vec1 256)
    (W2 : Mat 256 256) (b2 : Vec1 256) (W3 : Mat 256 128) (b3 : Vec1 128) : Mat n 128 := fun i =>
  mlpRow (fun k => X (ix2 ⟨(i 0).val, (i 0).isLt⟩ k)) (fun k => maskVal (mask (ix1 k))) W W1 b1 W2 b2 W3 b3 ⟨(i 1).val, (i 1).isLt⟩

/-- Read at explicit coordinates. -/
theorem mlp_apply {n : ℕ} (X : Mat n 1024) (mask : (⟨1, ![1024]⟩ : Shape).Idx → BitVec 1) (W : Mat 1024 256) (W1 : Mat 256 256)
    (b1 : Vec1 256) (W2 : Mat 256 256) (b2 : Vec1 256) (W3 : Mat 256 128) (b3 : Vec1 128) (p : Fin n) (q : Fin 128) :
    mlp X mask W W1 b1 W2 b2 W3 b3 (ix2 p q) = mlpRow (fun k => X (ix2 p k)) (fun k => maskVal (mask (ix1 k))) W W1 b1 W2 b2 W3 b3 q := rfl

end Cert.MaskedMlp

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.LibPlainDot.lean ====
/-
  A plain matrix product read at an entry. For an `M × K` matrix `l` and a `K × N` matrix `r` over the extended reals,
  the product accumulated into zero has, at `(p, q)`, the value `Σ_k l(p, k) · r(k, q)`: the one contracted axis is
  re-indexed by its coordinate, the left operand read along row `p`, the right along column `q`.
  Stated for any extents and element formats; nothing here mentions a program.
-/
import Idealize.ShloMosaic.PureOps.Ideal.Laws
import Idealize.ShloMosaic.Lib.ValueIdx

noncomputable section

namespace Cert.LibPlainDot

open Idealize.ShloMosaic Idealize.ShloMosaic.ValueIdx

/-- The plain product `l · r` into the zero accumulator, at `(p, q)`, is `Σ_k l(p, k) · r(k, q)`. The contraction index of
    a plain product is its one coordinate `k`; the left operand is read at `(p, k)` and the right at `(k, q)`. -/
theorem matmul_plain_zero_apply {M K N : ℕ} {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

end Cert.LibPlainDot

end
-- ==== Proof.BlockValue.lean ====
/-
  What the kernel body computes on one block of 1024 batch rows, read entry by entry.

  The body's one stored value is, as a term, three layers over a projection:
    projBlock   x W mask      = x · (W ∘ maskcolumn)            (the mask, as 32-bit words, turned into a float column and
                                                                 laid across W's 256 columns before the product)
    reluDense   h M b         = max (h · M + b laid along the rows) 0
    outDense    h M b         = h · M + b laid along the rows
  and the stored value is `outDense (reluDense (reluDense (projBlock …) W1 b1) W2 b2) W3 b3` (by unfolding).
  Read at `(p, q)`, each product is a sum along row `p` of its left operand, a bias laid along the rows reads the bias at
  the column, and the mask column reads the mask at the row: so entry `(p, q)` of the block is entry `q` of the network's
  output row for row `p` of the x block. Row `p` of the result depends on row `p` of the x block alone.
-/
import proofs.«162842_g31095563223590_cont_sun_c4_403_14_alg».proof.Proof.Gen.KernelIdeal.Skeleton
import proofs.«162842_g31095563223590_cont_sun_c4_403_14_alg».proof.Proof.MlpSpec
import proofs.«162842_g31095563223590_cont_sun_c4_403_14_alg».proof.Proof.LibColumn
import proofs.«162842_g31095563223590_cont_sun_c4_403_14_alg».proof.Proof.LibPlainDot
import Idealize.ShloMosaic.Lib.ValueLayout
import Idealize.ShloMosaic.PureOps.Ideal.Laws

noncomputable section

namespace Cert.KernelIdeal.BlockValue

open Cert.KernelIdeal Cert.KernelIdeal.Gen Cert.MaskedMlp
open Idealize.ShloMosaic Idealize.ShloMosaic.ValueIdx

/-! ## The body's value as layers -/

/-- The masked projection of the x block: the mask words become a float column, laid across `W`'s columns, and the
    block is multiplied by the masked weights. -/
def projBlock (x : Vec Ideal S1024x1024 .f32) (W : Vec Ideal S1024x256 .f32) (mask : Vec Ideal S1024 .i32) : FVec Ideal S1024x256 .f32 :=
  matmul (φ₁ := .f32) (φ₂ := .f32) dot_S1024x1024_S1024x256_S1024x256_1_0_0_1_n_n none x
    (mulf W (broadcastTo S1024x256 (shapeCast S1024x1 (sitofp .f32 (extui 32 (cmpi .ne mask (constantI S1024 32 0#32)) natLt_1_32))
      shapeCasts_S1024_S1024x1) broadcasts_S1024x1_S1024x256))
    (constant S1024x256 .f32 0x00000000#32)

/-- A hidden layer on a block: product, bias laid along the rows, relu. -/
def reluDense (h : FVec Ideal S1024x256 .f32) (M : Vec Ideal S256x256 .f32) (b : Vec Ideal S256 .f32) : FVec Ideal S1024x256 .f32 :=
  maximumf (addf (matmul (φ₁ := .f32) (φ₂ := .f32) dot_S1024x256_S256x256_S1024x256_1_0_0_1_n_n none h M (constant S1024x256 .f32 0x00000000#32))
      (broadcastTo S1024x256 (shapeCast S1x256 b shapeCasts_S256_S1x256) broadcasts_S1x256_S1024x256))
    (broadcast S1024x256 (Scalar.ofBits .f32 0x00000000#32))

/-- The output layer on a block: product and bias laid along the rows. -/
def outDense (h : FVec Ideal S1024x256 .f32) (M : Vec Ideal S256x128 .f32) (b : Vec Ideal S128 .f32) : FVec Ideal S1024x128 .f32 :=
  addf (matmul (φ₁ := .f32) (φ₂ := .f32) dot_S1024x256_S256x128_S1024x128_1_0_0_1_n_n none h M (constant S1024x128 .f32 0x00000000#32))
    (broadcastTo S1024x128 (shapeCast S1x128 b shapeCasts_S128_S1x128) broadcasts_S1x128_S1024x128)

/-- The body's stored value is the three layers over the projection. -/
theorem payload_layers (W : Vec Ideal S1024x256 .f32) (mask : Vec Ideal S1024 .i32) (x : Vec Ideal S1024x1024 .f32)
    (W1 : Vec Ideal S256x256 .f32) (b1 : Vec Ideal S256 .f32) (W2 : Vec Ideal S256x256 .f32) (b2 : Vec Ideal S256 .f32)
    (W3 : Vec Ideal S256x128 .f32) (b3 : Vec Ideal S128 .f32) :
    k0_pay1 (F := Ideal) W mask x W1 b1 W2 b2 W3 b3
      = outDense (reluDense (reluDense (projBlock x W mask) W1 b1) W2 b2) W3 b3 := rfl

/-! ## Each layer at an entry -/

/-- A vector laid along the rows of a matrix (cast to one row, broadcast down) reads the vector at the column. -/
theorem broadcastTo_row_apply {α : Type} {a b : ℕ} (v : (⟨1, ![b]⟩ : Shape).Idx → α)
    (h1 : (⟨1, ![b]⟩ : Shape).ShapeCasts ⟨2, ![1, b]⟩) (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) :=
  (broadcastTo_1b_ab_apply _ hb p c).trans (shapeCast_a_1a_apply v h1 0 c)

/-- The projection at `(p, j)`: the sum over features of the block's row `p` against the masked column `j` of `W`, the mask
    word of feature `k` read as the vector unit reads it. -/
theorem projBlock_apply (x : Vec Ideal S1024x1024 .f32) (W : Vec Ideal S1024x256 .f32) (mask : Vec Ideal S1024 .i32)
    (p : Fin 1024) (j : Fin 256) :
    projBlock x W mask (ix2 p j) = project (fun k => x (ix2 p k)) (fun k => maskWordVal (mask (ix1 k))) W j := by
  unfold projBlock project
  refine (Cert.LibPlainDot.matmul_plain_zero_apply (M := 1024) (K := 1024) (N := 256) x _ p j).trans ?_
  refine Finset.sum_congr rfl fun k _ => ?_
  show x (ix2 p k) * (W (ix2 k j) * _) = _
  rw [Cert.LibColumn.broadcastTo_column_apply]
  rfl

/-- A hidden layer at `(p, j)`: the dense layer on row `p` of its input, then relu. -/
theorem reluDense_apply (h : FVec Ideal S1024x256 .f32) (M : Vec Ideal S256x256 .f32) (b : Vec Ideal S256 .f32) (p : Fin 1024) (j : Fin 256) :
    reluDense h M b (ix2 p j) = max (dense (fun k => h (ix2 p k)) M b j) 0 := by
  unfold reluDense dense
  show max (FloatOps.matmul (DotDims.plain 1024 256 256) none h M (constant S1024x256 .f32 0x00000000#32) (ix2 p j)
      + broadcastTo S1024x256 (shapeCast S1x256 b shapeCasts_S256_S1x256) broadcasts_S1x256_S1024x256 (ix2 p j))
    (Ideal.ofBits .f32 0x00000000#32) = _
  rw [Cert.LibPlainDot.matmul_plain_zero_apply, broadcastTo_row_apply, Ideal.ofBits_zero_f32]

/-- The output layer at `(p, j)`: the dense layer on row `p` of its input. -/
theorem outDense_apply (h : FVec Ideal S1024x256 .f32) (M : Vec Ideal S256x128 .f32) (b : Vec Ideal S128 .f32) (p : Fin 1024) (j : Fin 128) :
    outDense h M b (ix2 p j) = dense (fun k => h (ix2 p k)) M b j := by
  unfold outDense dense
  show FloatOps.matmul (DotDims.plain 1024 256 128) none h M (constant S1024x128 .f32 0x00000000#32) (ix2 p j)
      + broadcastTo S1024x128 (shapeCast S1x128 b shapeCasts_S128_S1x128) broadcasts_S1x128_S1024x128 (ix2 p j) = _
  rw [Cert.LibPlainDot.matmul_plain_zero_apply, broadcastTo_row_apply]

/-! ## The block at an entry -/

/-- Entry `(p, q)` of the value the body stores is entry `q` of the network's output row for row `p` of the x block,
    with the mask words read as the vector unit reads them. -/
theorem payload_apply (W : Vec Ideal S1024x256 .f32) (mask : Vec Ideal S1024 .i32) (x : Vec Ideal S1024x1024 .f32)
    (W1 : Vec Ideal S256x256 .f32) (b1 : Vec Ideal S256 .f32) (W2 : Vec Ideal S256x256 .f32) (b2 : Vec Ideal S256 .f32)
    (W3 : Vec Ideal S256x128 .f32) (b3 : Vec Ideal S128 .f32) (p : Fin 1024) (q : Fin 128) :
    k0_pay1 (F := Ideal) W mask x W1 b1 W2 b2 W3 b3 (ix2 p q)
      = mlpRow (fun k => x (ix2 p k)) (fun k => maskWordVal (mask (ix1 k))) W W1 b1 W2 b2 W3 b3 q := by
  rw [payload_layers, outDense_apply]
  unfold mlpRow hidden2 hidden1
  simp only [reluDense_apply, projBlock_apply]

end Cert.KernelIdeal.BlockValue

end
-- ==== Proof.KernelValue.lean ====
/-
  From blocks to the array: after the kernel's run the result array is the network of the specification on the whole
  batch.

  The grid has four points. Point `t` stages rows `1024·t … 1024·t + 1023` of x and writes back the same rows of the
  result; every other operand is staged whole, the same at each point. Of these the mask is not an argument itself:
  before the call the host widens each mask bit to a 32-bit word, and the body reads those words.
  So at point `t` entry `(p, q)` of the block written back is the network's output row for x's row `1024·t + p` — the
  body's value at an entry (a function of the x block's row `p` alone), with the widened word of a bit reading back as
  the bit. The four row blocks tile the 4096 rows: row `r` lies in the block of point `r / 1024`. Hence the whole array.
-/
import proofs.«162842_g31095563223590_cont_sun_c4_403_14_alg».proof.Proof.Gen.KernelIdeal.Value
import proofs.«162842_g31095563223590_cont_sun_c4_403_14_alg».proof.Proof.BlockValue
import Idealize.ShloMosaic.Lib.StableHlo.Run

noncomputable section

namespace Cert.KernelIdeal.KernelValue

open Cert.KernelIdeal Cert.KernelIdeal.Gen Cert.MaskedMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- THE RESULT, as one function of the arrays as launched: the network on the whole batch. -/
abbrev result (c : Dev nD) : S4096x128.Idx → EReal :=
  mlp (n := 4096) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## Where each window's block sits -/

/-- The printed index maps over the four points: x's block and the result's block are row block `t`; every other
    window's block index is zero on every axis. -/
theorem block_indices : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- The mask words the region finds: the host has widened each mask bit to a 32-bit word. -/
theorem maskWords_eq (c : Dev nD) :
    (V m c main_v0 : S1024.Idx → BitVec 32) = extui 32 (m ((c : Thread nD τ).loc main_arg1)) natLt_1_32 := by
  dsimp only [V, hostOps0]
  after_results

/-! ## The blocks the body reads at point `t` -/

/-- Row `p` of the x block at point `t` is row `1024·t + p` of x. -/
theorem xblock_apply (c : Dev nD) (t : Fin cfg0.N) (p : Fin 1024) (k : Fin 1024) (P : Fin 4096) (hP : P.val = t.val * 1024 + p.val) :
    iblk m c 0 t (ix2 p k) = m ((c : Thread nD τ).loc main_arg0) (ix2 P k) := by
  show V m c main_arg0 (((cfg0.win 0).blk t).view.emb (ix2 p k)) = _
  rw [V_main_arg0]
  refine congrArg (m ((c : Thread nD τ).loc main_arg0)) (funext fun a => Fin.ext ?_)
  obtain ⟨e0, e1, -⟩ := block_indices t
  match a with
  | ⟨0, _⟩ => show win0_0.index t (0 : Fin 2) * 1024 + 1 * p.val = P.val; omega
  | ⟨1, _⟩ => show win0_0.index t (1 : Fin 2) * 1024 + 1 * k.val = k.val; omega

/-- The mask word of feature `k`, at any point, is the widened mask bit of feature `k`. -/
theorem maskblock_apply (c : Dev nD) (t : Fin cfg0.N) (k : Fin 1024) :
    iblk m c 1 t (ix1 k) = (m ((c : Thread nD τ).loc main_arg1) (ix1 k)).setWidth 32 := by
  show V m c main_v0 (((cfg0.win 1).blk t).view.emb (ix1 k)) = _
  have hidx : ((cfg0.win 1).blk t).view.emb (ix1 k) = ix1 k := funext fun a => Fin.ext (by
    obtain ⟨-, -, e2, -⟩ := block_indices t
    match a with
    | ⟨0, _⟩ => show win0_1.index t (0 : Fin 1) * 1024 + 1 * k.val = k.val; omega)
  rw [hidx]
  exact congrFun (maskWords_eq m c) (ix1 k)

/-- A window staged whole, rank 2: its block at any point is the array as launched. -/
theorem W_block (c : Dev nD) (t : Fin cfg0.N) : (iblk m c 2 t : S1024x256.Idx → EReal) = m ((c : Thread nD τ).loc main_arg2) := by
  funext y
  show V m c main_arg2 (((cfg0.win 2).blk t).view.emb y) = _
  rw [V_main_arg2]
  refine congrArg (m ((c : Thread nD τ).loc main_arg2)) (funext fun a => Fin.ext ?_)
  obtain ⟨-, -, -, e0, e1, -⟩ := block_indices t
  match a with
  | ⟨0, _⟩ => show win0_2.index t (0 : Fin 2) * 1024 + 1 * (y 0).val = (y 0).val; omega
  | ⟨1, _⟩ => show win0_2.index t (1 : Fin 2) * 256 + 1 * (y 1).val = (y 1).val; omega

theorem W1_block (c : Dev nD) (t : Fin cfg0.N) : (iblk m c 3 t : S256x256.Idx → EReal) = m ((c : Thread nD τ).loc main_arg3) := by
  funext y
  show V m c main_arg3 (((cfg0.win 3).blk t).view.emb y) = _
  rw [V_main_arg3]
  refine congrArg (m ((c : Thread nD τ).loc main_arg3)) (funext fun a => Fin.ext ?_)
  obtain ⟨-, -, -, -, -, e0, e1, -⟩ := block_indices t
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem b1_block (c : Dev nD) (t : Fin cfg0.N) : (iblk m c 4 t : S256.Idx → EReal) = m ((c : Thread nD τ).loc main_arg4) := by
  funext y
  show V m c main_arg4 (((cfg0.win 4).blk t).view.emb y) = _
  rw [V_main_arg4]
  refine congrArg (m ((c : Thread nD τ).loc main_arg4)) (funext fun a => Fin.ext ?_)
  obtain ⟨-, -, -, -, -, -, -, e0, -⟩ := block_indices t
  match a with
  | ⟨0, _⟩ => show win0_4.index t (0 : Fin 1) * 256 + 1 * (y 0).val = (y 0).val; omega

theorem W2_block (c : Dev nD) (t : Fin cfg0.N) : (iblk m c 5 t : S256x256.Idx → EReal) = m ((c : Thread nD τ).loc main_arg5) := by
  funext y
  show V m c main_arg5 (((cfg0.win 5).blk t).view.emb y) = _
  rw [V_main_arg5]
  refine congrArg (m ((c : Thread nD τ).loc main_arg5)) (funext fun a => Fin.ext ?_)
  obtain ⟨-, -, -, -, -, -, -, -, e0, e1, -⟩ := block_indices t
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem b2_block (c : Dev nD) (t : Fin cfg0.N) : (iblk m c 6 t : S256.Idx → EReal) = m ((c : Thread nD τ).loc main_arg6) := by
  funext y
  show V m c main_arg6 (((cfg0.win 6).blk t).view.emb y) = _
  rw [V_main_arg6]
  refine congrArg (m ((c : Thread nD τ).loc main_arg6)) (funext fun a => Fin.ext ?_)
  obtain ⟨-, -, -, -, -, -, -, -, -, -, e0, -⟩ := block_indices t
  match a with
  | ⟨0, _⟩ => show win0_6.index t (0 : Fin 1) * 256 + 1 * (y 0).val = (y 0).val; omega

theorem W3_block (c : Dev nD) (t : Fin cfg0.N) : (iblk m c 7 t : S256x128.Idx → EReal) = m ((c : Thread nD τ).loc main_arg7) := by
  funext y
  show V m c main_arg7 (((cfg0.win 7).blk t).view.emb y) = _
  rw [V_main_arg7]
  refine congrArg (m ((c : Thread nD τ).loc main_arg7)) (funext fun a => Fin.ext ?_)
  obtain ⟨-, -, -, -, -, -, -, -, -, -, -, e0, e1, -⟩ := block_indices t
  match a with
  | ⟨0, _⟩ => show win0_7.index t (0 : Fin 2) * 256 + 1 * (y 0).val = (y 0).val; omega
  | ⟨1, _⟩ => show win0_7.index t (1 : Fin 2) * 128 + 1 * (y 1).val = (y 1).val; omega

theorem b3_block (c : Dev nD) (t : Fin cfg0.N) : (iblk m c 8 t : S128.Idx → EReal) = m ((c : Thread nD τ).loc main_arg8) := by
  funext y
  show V m c main_arg8 (((cfg0.win 8).blk t).view.emb y) = _
  rw [V_main_arg8]
  refine congrArg (m ((c : Thread nD τ).loc main_arg8)) (funext fun a => Fin.ext ?_)
  obtain ⟨-, -, -, -, -, -, -, -, -, -, -, -, -, e0, -⟩ := block_indices t
  match a with
  | ⟨0, _⟩ => show win0_8.index t (0 : Fin 1) * 128 + 1 * (y 0).val = (y 0).val; omega

/-! ## What point `t` writes back -/

/-- WHAT POINT `t` WRITES BACK is block `t` of the network's result on the whole batch. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero zeros2]
  simp only [View.ld_unit_zero (S := S1024x256) zeros2, View.ld_unit_zero (S := S1024) zeros1,
    View.ld_unit_zero (S := S1024x1024) zeros2, View.ld_unit_zero (S := S256x256) zeros2, View.ld_unit_zero (S := S256) zeros1,
    View.ld_unit_zero (S := S256x128) zeros2, View.ld_unit_zero (S := S128) zeros1]
  funext j
  obtain ⟨p, q, rfl⟩ : ∃ (p : Fin 1024) (q : Fin 128), j = ix2 p q := ⟨j 0, j 1, eq_ix2 j⟩
  obtain ⟨-, -, -, -, -, -, -, -, -, -, -, -, -, -, e0, e1⟩ := block_indices t
  have ht : t.val < 4 := t.isLt
  -- the array index of the block's entry (p, q): row 1024·t + p, column q
  have hemb : ((cfg0.win 9).blk t).view.emb (ix2 p q) = ix2 (⟨t.val * 1024 + p.val, by have := p.isLt; omega⟩ : Fin 4096) q :=
    funext fun a => Fin.ext (by
      match a with
      | ⟨0, _⟩ => show win0_9.index t (0 : Fin 2) * 1024 + 1 * p.val = t.val * 1024 + p.val; omega
      | ⟨1, _⟩ => show win0_9.index t (1 : Fin 2) * 128 + 1 * q.val = q.val; omega)
  show k0_pay1 (F := Ideal) (iblk m c 2 t) (iblk m c 1 t) (iblk m c 0 t) (iblk m c 3 t) (iblk m c 4 t) (iblk m c 5 t) (iblk m c 6 t)
      (iblk m c 7 t) (iblk m c 8 t) (ix2 p q) = result m c (((cfg0.win 9).blk t).view.emb (ix2 p q))
  rw [hemb]
  unfold result
  rw [mlp_apply]
  refine (BlockValue.payload_apply (iblk m c 2 t) (iblk m c 1 t) (iblk m c 0 t) (iblk m c 3 t) (iblk m c 4 t) (iblk m c 5 t)
    (iblk m c 6 t) (iblk m c 7 t) (iblk m c 8 t) p q).trans ?_
  rw [W_block, W1_block, b1_block, W2_block, b2_block, W3_block, b3_block]
  exact congrFun (mlpRow_congr (fun k => xblock_apply m c t p k _ rfl)
    (fun k => by rw [maskblock_apply]; exact maskWord_widened _) _ _ _ _ _ _ _) q

/-! ## The cover -/

/-- An index of the result array is in point `t`'s block iff each coordinate is in the block's range on its axis. -/
theorem mem_block (t : Fin cfg0.N) (i : S4096x128.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v1).slice (win0_9.rect t)).set ↔ _
  rw [View.set_slice_whole, Rect.mem_set_unit]
  exact Iff.rfl

/-- The four row blocks tile the array: row `r` is in the block of point `r / 1024`. -/
theorem covered (i : S4096x128.Idx) : ∃ t : Fin cfg0.N, (cfg0.win 9).flush t = true ∧ i ∈ ((cfg0.win 9).blk t).view.set := by
  have hi0 : (i 0).val < 4096 := (i 0).isLt
  have hi1 : (i 1).val < 128 := (i 1).isLt
  let t : Fin cfg0.N := ⟨(i 0).val / 1024, by show (i 0).val / 1024 < 4; omega⟩
  obtain ⟨-, -, -, -, -, -, -, -, -, -, -, -, -, -, e0, e1⟩ := block_indices t
  have hv : t.val = (i 0).val / 1024 := rfl
  refine ⟨t, flush0_9 t, ?_⟩
  rw [mem_block]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 128 ≤ (i 1).val ∧ (i 1).val < win0_9.index t (1 : Fin 2) * 128 + 128; omega

/-! ## The array, and the run -/

/-- THE RESULT ARRAY after the run is the network on the whole batch. -/
theorem final (c : Dev nD) : (dats m 0 c).arrAt 9 cfg0.N = result m c :=
  (dats m 0 c).arrAt_eq_of_cover 9 (result m c) (fun t _ => flushed_eq m c t) covered

/-- The kernel's run: every weakly fair execution terminates with the result array at the network of the arrays as
    launched, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.KernelValue

end
-- ==== Proof.RefValue.lean ====
/-
  The reference program, read entry by entry, is the network of the specification on the whole batch of 4096 rows.

  Its stages, at explicit coordinates:
    masked weights   (k, j) ↦ W(k, j) · mask_k            (the mask bit read as the number 0 or 1, laid across W's columns)
    projection       (p, j) ↦ Σ_k x(p, k) · (W(k, j) · mask_k)
    first hidden     (p, j) ↦ max (Σ_k proj(p, k) · W1(k, j) + b1_j) 0
    second hidden    (p, j) ↦ max (Σ_k h¹(p, k) · W2(k, j) + b2_j) 0
    result           (p, j) ↦ Σ_k h²(p, k) · W3(k, j) + b3_j
  Each product reads its left operand along row `p` only, so every stage's row `p` is a function of row `p` of x: the
  specification's row function applied to that row.
-/
import proofs.«162842_g31095563223590_cont_sun_c4_403_14_alg».proof.Proof.Gen.ReferenceIdeal.Read
import proofs.«162842_g31095563223590_cont_sun_c4_403_14_alg».proof.Proof.MlpSpec

noncomputable section

namespace Cert.ReferenceIdeal.RefValue

open Cert.ReferenceIdeal Cert.ReferenceIdeal.Read Cert.MaskedMlp
open Idealize.ShloMosaic Idealize.ShloMosaic.ValueIdx

variable (x0 : (⟨S4096x1024, .f32⟩ : BufTy).Contents (Elt Ideal)) (x1 : (⟨S1024, .i1⟩ : BufTy).Contents (Elt Ideal))
  (x2 : (⟨S1024x256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x128, .f32⟩ : BufTy).Contents (Elt Ideal))
  (x8 : (⟨S128, .f32⟩ : BufTy).Contents (Elt Ideal))

/-- The mask values the reference uses: each bit as the number 0 or 1. -/
abbrev μ : Fin 1024 → EReal := fun k => maskVal (x1 (ix1 k))

/-- Row `p` of the batch. -/
abbrev xrow (p : Fin 4096) : Fin 1024 → EReal := fun k => x0 (ix2 p k)

/-- The masked weights at `(k, j)`: the weight times feature `k`'s mask value. -/
theorem maskedW_apply (k : Fin 1024) (j : Fin 256) :
    val_main_v3 (F := Ideal) x1 x2 (ix2 k j) = x2 (ix2 k j) * maskVal (x1 (ix1 k)) := by
  rw [val_main_v3_apply, val_main_v2_apply, val_main_v1_apply, val_main_v0_apply]
  have e : idx_main_v1 (idx_main_v2 (ix2 k j)) = ix1 k := funext fun a => Fin.ext (by match a with | ⟨0, _⟩ => rfl)
  rw [e]
  rfl

/-- The projection at `(p, j)`. -/
theorem proj_apply (p : Fin 4096) (j : Fin 256) :
    val_main_v4 (F := Ideal) x0 x1 x2 (ix2 p j) = project (xrow x0 p) (μ x1) x2 j := by
  rw [val_main_v4_apply]
  unfold project
  refine Finset.sum_congr rfl fun k _ => ?_
  have el : lidx_main_v4 (ix2 p j) k = ix2 p k := funext fun a => Fin.ext (by match a with | ⟨0, _⟩ => rfl | ⟨1, _⟩ => rfl)
  have er : ridx_main_v4 (ix2 p j) k = ix2 k j := funext fun a => Fin.ext (by match a with | ⟨0, _⟩ => rfl | ⟨1, _⟩ => rfl)
  rw [el, er, maskedW_apply]

/-- The first hidden stage at `(p, j)`. -/
theorem hidden1_apply (p : Fin 4096) (j : Fin 256) :
    val_main_v9 (F := Ideal) x0 x1 x2 x3 x4 (ix2 p j) = hidden1 (xrow x0 p) (μ x1) x2 x3 x4 j := by
  rw [val_main_v9_apply, val_main_v8_apply, val_main_v5_apply, val_main_v7_apply, val_main_v6_apply,
    val_main_call0_v0_apply, val_main_call0_cst_apply]
  have eb : idx_main_v6 (idx_main_v7 (ix2 p j)) = ix1 j := funext fun a => Fin.ext (by match a with | ⟨0, _⟩ => rfl)
  rw [eb]
  unfold hidden1 dense
  show max ((∑ k : Fin 256, val_main_v4 (F := Ideal) x0 x1 x2 (lidx_main_v5 (ix2 p j) k) * x3 (ridx_main_v5 (ix2 p j) k)) + x4 (ix1 j))
    (Ideal.ofBits .f32 0x00000000#32) = _
  rw [Ideal.ofBits_zero_f32]
  refine congrArg (fun s => max (s + x4 (ix1 j)) 0) (Finset.sum_congr rfl fun k _ => ?_)
  have el : lidx_main_v5 (ix2 p j) k = ix2 p k := funext fun a => Fin.ext (by match a with | ⟨0, _⟩ => rfl | ⟨1, _⟩ => rfl)
  have er : ridx_main_v5 (ix2 p j) k = ix2 k j := funext fun a => Fin.ext (by match a with | ⟨0, _⟩ => rfl | ⟨1, _⟩ => rfl)
  rw [el, er, proj_apply]

/-- The second hidden stage at `(p, j)`. -/
theorem hidden2_apply (p : Fin 4096) (j : Fin 256) :
    val_main_v14 (F := Ideal) x0 x1 x2 x3 x4 x5 x6 (ix2 p j) = hidden2 (xrow x0 p) (μ x1) x2 x3 x4 x5 x6 j := by
  rw [val_main_v14_apply, val_main_v13_apply, val_main_v10_apply, val_main_v12_apply, val_main_v11_apply,
    val_main_call1_v0_apply, val_main_call1_cst_apply]
  have eb : idx_main_v11 (idx_main_v12 (ix2 p j)) = ix1 j := funext fun a => Fin.ext (by match a with | ⟨0, _⟩ => rfl)
  rw [eb]
  unfold hidden2 dense
  show max ((∑ k : Fin 256, val_main_v9 (F := Ideal) x0 x1 x2 x3 x4 (lidx_main_v10 (ix2 p j) k) * x5 (ridx_main_v10 (ix2 p j) k)) + x6 (ix1 j))
    (Ideal.ofBits .f32 0x00000000#32) = _
  rw [Ideal.ofBits_zero_f32]
  refine congrArg (fun s => max (s + x6 (ix1 j)) 0) (Finset.sum_congr rfl fun k _ => ?_)
  have el : lidx_main_v10 (ix2 p j) k = ix2 p k := funext fun a => Fin.ext (by match a with | ⟨0, _⟩ => rfl | ⟨1, _⟩ => rfl)
  have er : ridx_main_v10 (ix2 p j) k = ix2 k j := funext fun a => Fin.ext (by match a with | ⟨0, _⟩ => rfl | ⟨1, _⟩ => rfl)
  rw [el, er, hidden1_apply]

/-- The result at `(p, q)`: the network's output row for row `p` of the batch, at `q`. -/
theorem result_apply (p : Fin 4096) (q : Fin 128) :
    val_main_v18 (F := Ideal) x0 x1 x2 x3 x4 x5 x6 x7 x8 (ix2 p q) = mlpRow (xrow x0 p) (μ x1) x2 x3 x4 x5 x6 x7 x8 q := by
  rw [val_main_v18_apply, val_main_v15_apply, val_main_v17_apply, val_main_v16_apply]
  have eb : idx_main_v16 (idx_main_v17 (ix2 p q)) = ix1 q := funext fun a => Fin.ext (by match a with | ⟨0, _⟩ => rfl)
  rw [eb]
  unfold mlpRow dense
  show (∑ k : Fin 256, val_main_v14 (F := Ideal) x0 x1 x2 x3 x4 x5 x6 (lidx_main_v15 (ix2 p q) k) * x7 (ridx_main_v15 (ix2 p q) k)) + x8 (ix1 q) = _
  refine congrArg (fun s => s + x8 (ix1 q)) (Finset.sum_congr rfl fun k _ => ?_)
  have el : lidx_main_v15 (ix2 p q) k = ix2 p k := funext fun a => Fin.ext (by match a with | ⟨0, _⟩ => rfl | ⟨1, _⟩ => rfl)
  have er : ridx_main_v15 (ix2 p q) k = ix2 k q := funext fun a => Fin.ext (by match a with | ⟨0, _⟩ => rfl | ⟨1, _⟩ => rfl)
  rw [el, er, hidden2_apply]

/-- THE REFERENCE'S RESULT is the network on the whole batch. -/
theorem result_eq :
    val_main_v18 (F := Ideal) x0 x1 x2 x3 x4 x5 x6 x7 x8 = mlp (n := 4096) x0 x1 x2 x3 x4 x5 x6 x7 x8 := by
  funext i
  obtain ⟨p, q, rfl⟩ : ∃ (p : Fin 4096) (q : Fin 128), i = ix2 p q := ⟨i 0, i 1, eq_ix2 i⟩
  rw [result_apply, mlp_apply]

end Cert.ReferenceIdeal.RefValue

end
-- ==== Proof.lean ====
/-
  A feature-masked projection followed by a three-layer perceptron, as one row-blocked kernel, against the same network
  written with whole-batch matrix products.

  Both programs compute, for every batch row `x` (1024 features) and every class `j`,
      out_j = Σ_k h²_k · W3_kj + b3_j,   h² = relu (h¹ · W2 + b2),   h¹ = relu (h⁰ · W1 + b1),   h⁰_j = Σ_k x_k · (W_kj · mask_k)
  over the extended reals, with the same operand order and the same grouping of every sum and product, so the two
  results are equal term by term and no entry needs to be finite.

  The differences are of arrangement only. The kernel evaluates four blocks of 1024 rows, one per grid point; since no
  product mixes rows, block `t`'s entry `(p, q)` is the whole-batch value at row `1024·t + p`, and the four blocks tile the
  4096 rows. And the mask reaches the kernel as 32-bit words (the host widens each bit before the call; the body tests a
  word against zero, widens the test's bit and reads it as a signed integer), where the reference reads each bit as an
  unsigned number: a bit's widened word is 0 or 1, so both read the number 0 or 1.

  The kernel's side: Proof/BlockValue.lean (the body's value at an entry), Proof/KernelValue.lean (blocks to the array, the
  run). The reference's side: Proof/RefValue.lean. The network itself: Proof/MlpSpec.lean. The idealized kernel is the
  printed kernel read at the extended reals with nothing rewritten, so there is nothing to preserve.
-/
import proofs.«162842_g31095563223590_cont_sun_c4_403_14_alg».proof.Defs
import proofs.«162842_g31095563223590_cont_sun_c4_403_14_alg».proof.Proof.Gen.Kernel
import proofs.«162842_g31095563223590_cont_sun_c4_403_14_alg».proof.Proof.Gen.Kernel.Skeleton
import proofs.«162842_g31095563223590_cont_sun_c4_403_14_alg».proof.Proof.Gen.Kernel.Launch
import proofs.«162842_g31095563223590_cont_sun_c4_403_14_alg».proof.Proof.Gen.Kernel.Points
import proofs.«162842_g31095563223590_cont_sun_c4_403_14_alg».proof.Proof.Gen.Kernel.Frame
import proofs.«162842_g31095563223590_cont_sun_c4_403_14_alg».proof.Proof.Gen.KernelIdeal
import proofs.«162842_g31095563223590_cont_sun_c4_403_14_alg».proof.Proof.Gen.KernelIdeal.Skeleton
import proofs.«162842_g31095563223590_cont_sun_c4_403_14_alg».proof.Proof.Gen.KernelIdeal.Launch
import proofs.«162842_g31095563223590_cont_sun_c4_403_14_alg».proof.Proof.Gen.KernelIdeal.Points
import proofs.«162842_g31095563223590_cont_sun_c4_403_14_alg».proof.Proof.Gen.KernelIdeal.Frame
import proofs.«162842_g31095563223590_cont_sun_c4_403_14_alg».proof.Proof.Gen.ReferenceIdeal
import proofs.«162842_g31095563223590_cont_sun_c4_403_14_alg».proof.Proof.Gen.Pre_finite_inputs
import proofs.«162842_g31095563223590_cont_sun_c4_403_14_alg».proof.Proof.Gen.KernelIdeal.Value
import proofs.«162842_g31095563223590_cont_sun_c4_403_14_alg».proof.Proof.Gen.ReferenceIdeal.Run
import proofs.«162842_g31095563223590_cont_sun_c4_403_14_alg».proof.Proof.Gen.ReferenceIdeal.Read
import Idealize.ShloMosaic.Adequacy
import Idealize.ShloMosaic.Init

import proofs.«162842_g31095563223590_cont_sun_c4_403_14_alg».proof.Proof.KernelValue
import proofs.«162842_g31095563223590_cont_sun_c4_403_14_alg».proof.Proof.RefValue

noncomputable section

namespace Cert.Proof

open Idealize.ShloMosaic Idealize.SL.Sem Cert.Kernel

/-- At the extended reals both programs end with the network of the arrays as launched: the kernel's result array
    block by block (`KernelValue.run`), the reference's as its last stage (`RefValue.result_eq`), from memories that agree
    on the nine arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v18_eq, Cert.ReferenceIdeal.RefValue.result_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
